-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x32768x3 : Shape := ⟨3, ![16, 32768, 3]⟩
abbrev S85x3 : Shape := ⟨2, ![85, 3]⟩
abbrev S85 : Shape := ⟨1, ![85]⟩
abbrev S_ : Shape := ⟨0, ![]⟩

class Facts : Prop where
  bcast_S_S16x32768x3 : S_.BroadcastsInDim S16x32768x3 (![] : Fin 0 → Fin S16x32768x3.rank)
  reducesTo_S16x32768x3_S_d0_1_2 : S16x32768x3.ReducesTo [0, 1, 2] S_
  h_S_ : 0 < S_.numel
  bcast_S_S85x3 : S_.BroadcastsInDim S85x3 (![] : Fin 0 → Fin S85x3.rank)
  reducesTo_S85x3_S_d0_1 : S85x3.ReducesTo [0, 1] S_
  bcast_S_S85 : S_.BroadcastsInDim S85 (![] : Fin 0 → Fin S85.rank)
  reducesTo_S85_S_d0 : S85.ReducesTo [0] S_

variable [Facts]

def fn {F : FTy → Type} [FloatOps F] (main_arg0 : FVec F S16x32768x3 .f32) (main_arg1 : FVec F S85x3 .f32) (main_arg2 : FVec F S85 .f32) : IVec S_ 1 :=
  let main_v0 : FVec F S16x32768x3 .f32 := Host.absf main_arg0
  let main_cst : FVec F S_ .f32 := constant S_ .f32 0x7F800000#32
  let main_v1 : FVec F S16x32768x3 .f32 := broadcastInDim S16x32768x3 ![] bcast_S_S16x32768x3 main_cst
  let main_v2 : IVec S16x32768x3 1 := cmpf .olt main_v0 main_v1
  let main_c : IVec S_ 1 := constantI S_ 1 1#1
  let main_v3 : IVec S_ 1 := (fun x v => Host.reduce IntOp.andi x v reducesTo_S16x32768x3_S_d0_1_2 h_S_) main_v2 main_c
  let main_v4 : FVec F S85x3 .f32 := Host.absf main_arg1
  let main_cst_0 : FVec F S_ .f32 := constant S_ .f32 0x7F800000#32
  let main_v5 : FVec F S85x3 .f32 := broadcastInDim S85x3 ![] bcast_S_S85x3 main_cst_0
  let main_v6 : IVec S85x3 1 := cmpf .olt main_v4 main_v5
  let main_c_1 : IVec S_ 1 := constantI S_ 1 1#1
  let main_v7 : IVec S_ 1 := (fun x v => Host.reduce IntOp.andi x v reducesTo_S85x3_S_d0_1 h_S_) main_v6 main_c_1
  let main_v8 : IVec S_ 1 := andi main_v3 main_v7
  let main_v9 : FVec F S85 .f32 := Host.absf main_arg2
  let main_cst_2 : FVec F S_ .f32 := constant S_ .f32 0x7F800000#32
  let main_v10 : FVec F S85 .f32 := broadcastInDim S85 ![] bcast_S_S85 main_cst_2
  let main_v11 : IVec S85 1 := cmpf .olt main_v9 main_v10
  let main_c_3 : IVec S_ 1 := constantI S_ 1 1#1
  let main_v12 : IVec S_ 1 := (fun x v => Host.reduce IntOp.andi x v reducesTo_S85_S_d0 h_S_) main_v11 main_c_3
  let main_v13 : IVec S_ 1 := andi main_v8 main_v12
  main_v13
-- ==== Kernel.lean ====
abbrev S16x32768x3 : Shape := ⟨3, ![16, 32768, 3]⟩
abbrev S85x3 : Shape := ⟨2, ![85, 3]⟩
abbrev S85 : Shape := ⟨1, ![85]⟩
abbrev S1x85 : Shape := ⟨2, ![1, 85]⟩
abbrev S16x32768x85 : Shape := ⟨3, ![16, 32768, 85]⟩
abbrev S1x4096x3 : Shape := ⟨3, ![1, 4096, 3]⟩
abbrev S1x4096x85 : Shape := ⟨3, ![1, 4096, 85]⟩
abbrev S4096x3 : Shape := ⟨2, ![4096, 3]⟩
abbrev S4096x85 : Shape := ⟨2, ![4096, 85]⟩
abbrev S85x1 : Shape := ⟨2, ![85, 1]⟩
abbrev S4096x1 : Shape := ⟨2, ![4096, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x32768x3, .f32⟩
  | .hbm, ⟨1, _⟩ => ⟨S85x3, .f32⟩
  | .hbm, ⟨2, _⟩ => ⟨S85, .f32⟩
  | .hbm, ⟨3, _⟩ => ⟨S1x85, .f32⟩
  | .hbm, ⟨4, _⟩ => ⟨S16x32768x85, .f32⟩
  | .local _ .vmem, ⟨0, _⟩ => ⟨S1x4096x3, .f32⟩
  | .local _ .vmem, ⟨1, _⟩ => ⟨S1x4096x3, .f32⟩
  | .local _ .vmem, ⟨2, _⟩ => ⟨S85x3, .f32⟩
  | .local _ .vmem, ⟨3, _⟩ => ⟨S1x85, .f32⟩
  | .local _ .vmem, ⟨4, _⟩ => ⟨S1x4096x85, .f32⟩
  | .local _ .vmem, ⟨5, _⟩ => ⟨S1x4096x85, .f32⟩
  | _, _ => ⟨S16x32768x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S85x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x85 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x4096x85 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S85_S1x85 : S85.ShapeCasts S1x85
  inb_S1x4096x3_S1x4096x3_0_0_0 : ∀ a, (![0, 0, 0] : Fin 3 → Nat) a + S1x4096x3.size a ≤ S1x4096x3.size a
  h_S1x4096x3 : 0 < S1x4096x3.numel
  shapeCasts_S1x4096x3_S4096x3 : S1x4096x3.ShapeCasts S4096x3
  inb_S85x3_S85x3_0_0 : ∀ a, (![0, 0] : Fin 2 → Nat) a + S85x3.size a ≤ S85x3.size a
  h_S85x3 : 0 < S85x3.numel
  inb_S1x85_S1x85_0_0 : ∀ a, (![0, 0] : Fin 2 → Nat) a + S1x85.size a ≤ S1x85.size a
  h_S1x85 : 0 < S1x85.numel
  shapeCasts_S1x85_S85 : S1x85.ShapeCasts S85
  slices_S85x3_o0_0_S85x1 : S85x3.Slices ![0, 0] S85x1
  shapeCasts_S85x1_S85 : S85x1.ShapeCasts S85
  slices_S4096x3_o0_0_S4096x1 : S4096x3.Slices ![0, 0] S4096x1
  broadcasts_S4096x1_S4096x85 : S4096x1.Broadcasts S4096x85
  broadcasts_S1x85_S4096x85 : S1x85.Broadcasts S4096x85
  slices_S85x3_o0_1_S85x1 : S85x3.Slices ![0, 1] S85x1
  slices_S4096x3_o0_1_S4096x1 : S4096x3.Slices ![0, 1] S4096x1
  slices_S85x3_o0_2_S85x1 : S85x3.Slices ![0, 2] S85x1
  slices_S4096x3_o0_2_S4096x1 : S4096x3.Slices ![0, 2] S4096x1
  inb_S1x4096x85_S1x4096x85_0_0_0 : ∀ a, (![0, 0, 0] : Fin 3 → Nat) a + S1x4096x85.size a ≤ S1x4096x85.size a
  h_S1x4096x85 : 0 < S1x4096x85.numel
  shapeCasts_S1x4096x85_S4096x85 : S1x4096x85.ShapeCasts S4096x85
  shapeCasts_S4096x85_S1x4096x85 : S4096x85.ShapeCasts S1x4096x85
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x4096x3.size a ≤ S16x32768x3.size a
  hwx0_0 : ∀ i : grid0.Coords, EltTy.bits .f32 = 32 ∨ (Rect.block (s := S16x32768x3) S1x4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S85x3.size a ≤ S85x3.size a
  hwx0_1 : ∀ i : grid0.Coords, EltTy.bits .f32 = 32 ∨ (Rect.block (s := S85x3) S85x3.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x85.size a ≤ S1x85.size a
  hwx0_2 : ∀ i : grid0.Coords, EltTy.bits .f32 = 32 ∨ (Rect.block (s := S1x85) S1x85.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4096x85.size a ≤ S16x32768x85.size a
  hwx0_3 : ∀ i : grid0.Coords, EltTy.bits .f32 = 32 ∨ (Rect.block (s := S16x32768x85) S1x4096x85.size (cc0_transform_3 i) (hinb0_3 i)).WholeWords (EltTy.packing .f32)

variable [Facts₀]

abbrev win0_0 : Pipeline.Window sig grid0 :=
  Pipeline.Window.ofSpec (Memref.whole main_arg0) S1x4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S85x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x85.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096x85.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x32768x3 : Shape := ⟨3, ![16, 32768, 3]⟩
abbrev S85x3 : Shape := ⟨2, ![85, 3]⟩
abbrev S85 : Shape := ⟨1, ![85]⟩
abbrev S16x32768x1x3 : Shape := ⟨4, ![16, 32768, 1, 3]⟩
abbrev S1x1x85x3 : Shape := ⟨4, ![1, 1, 85, 3]⟩
abbrev S16x32768x85x3 : Shape := ⟨4, ![16, 32768, 85, 3]⟩
abbrev S_ : Shape := ⟨0, ![]⟩
abbrev S16x32768x85 : Shape := ⟨3, ![16, 32768, 85]⟩
abbrev S1x1x85 : Shape := ⟨3, ![1, 1, 85]⟩

abbrev nBuf : Space → Nat
  | .hbm => 17
  | .vmem => 0
  | .smem => 0
  | _ => 0

abbrev bufTy : (tb : Table) → Fin (tcTables nBuf tb) → BufTy
  | .hbm, ⟨0, _⟩ => ⟨S16x32768x3, .f32⟩
  | .hbm, ⟨1, _⟩ => ⟨S85x3, .f32⟩
  | .hbm, ⟨2, _⟩ => ⟨S85, .f32⟩
  | .hbm, ⟨3, _⟩ => ⟨S16x32768x1x3, .f32⟩
  | .hbm, ⟨4, _⟩ => ⟨S1x1x85x3, .f32⟩
  | .hbm, ⟨5, _⟩ => ⟨S16x32768x85x3, .f32⟩
  | .hbm, ⟨6, _⟩ => ⟨S16x32768x85x3, .f32⟩
  | .hbm, ⟨7, _⟩ => ⟨S16x32768x85x3, .f32⟩
  | .hbm, ⟨8, _⟩ => ⟨S16x32768x85x3, .f32⟩
  | .hbm, ⟨9, _⟩ => ⟨S_, .f32⟩
  | .hbm, ⟨10, _⟩ => ⟨S16x32768x85, .f32⟩
  | .hbm, ⟨11, _⟩ => ⟨S85, .f32⟩
  | .hbm, ⟨12, _⟩ => ⟨S16x32768x85, .f32⟩
  | .hbm, ⟨13, _⟩ => ⟨S1x1x85, .f32⟩
  | .hbm, ⟨14, _⟩ => ⟨S16x32768x85, .f32⟩
  | .hbm, ⟨15, _⟩ => ⟨S16x32768x85, .f32⟩
  | .hbm, ⟨16, _⟩ => ⟨S16x32768x85, .f32⟩
  | _, _ => ⟨S16x32768x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩

abbrev nD : Nat := 1
abbrev τ : Topo := Topo.v7x

variable {F : FTy → Type} [FloatOps F]

class Facts₀ : Prop where
  bcast_S16x32768x3_S16x32768x1x3_0_1_3 : S16x32768x3.BroadcastsInDim S16x32768x1x3 (![0, 1, 3] : Fin 3 → Fin S16x32768x1x3.rank)
  bcast_S85x3_S1x1x85x3_2_3 : S85x3.BroadcastsInDim S1x1x85x3 (![2, 3] : Fin 2 → Fin S1x1x85x3.rank)
  bcast_S16x32768x1x3_S16x32768x85x3_0_1_2_3 : S16x32768x1x3.BroadcastsInDim S16x32768x85x3 (![0, 1, 2, 3] : Fin 4 → Fin S16x32768x85x3.rank)
  bcast_S1x1x85x3_S16x32768x85x3_0_1_2_3 : S1x1x85x3.BroadcastsInDim S16x32768x85x3 (![0, 1, 2, 3] : Fin 4 → Fin S16x32768x85x3.rank)
  reducesTo_S16x32768x85x3_S16x32768x85_d3 : S16x32768x85x3.ReducesTo [3] S16x32768x85
  h_S_ : 0 < S_.numel
  bcast_S85_S1x1x85_2 : S85.BroadcastsInDim S1x1x85 (![2] : Fin 1 → Fin S1x1x85.rank)
  bcast_S1x1x85_S16x32768x85_0_1_2 : S1x1x85.BroadcastsInDim S16x32768x85 (![0, 1, 2] : Fin 3 → Fin S16x32768x85.rank)

variable [Facts₀]

class Facts : Prop extends Facts₀ where

variable [Facts]
-- ==== Proof.RbfSpec.lean ====
/-
  The function both programs compute, on the extended reals.

  For a point `x` and a centre `q` of three coordinates and a width `w`, the Gaussian radial-basis feature is
  `exp (-(Σ_d (x_d - q_d)²) / (w · w))`. The array of features is that value at every (batch, point, centre):
  entry `(b, p, k)` is the feature of point `X[b, p, ·]` against centre `Q[k, ·]` with width `w k`.

  The two programs spell the squared distance differently. One accumulates the three squares from zero, left to
  right, and negates by subtracting from zero; the other takes zero plus the sum of the three squares and negates.
  Addition on the extended reals is a commutative monoid and `0 - s = -s` holds there for every `s`, the
  infinities included, so both spellings are the same extended real whatever the inputs: no finiteness is used.
-/
import Idealize.ShloMosaic.PureOps.Ideal
import Idealize.ShloMosaic.PureOps.Ideal.Laws
import Idealize.ShloMosaic.Lib.ValueIdx

noncomputable section

open scoped BigOperators

namespace Cert.Rbf

open Idealize.ShloMosaic Idealize.ShloMosaic.ValueIdx

/-- `exp (-‖x - q‖² / w²)` on the extended reals, for three coordinates: the squared distance is the sum of the
    three squared differences, the quotient and the exponential are the extended reals' (`x / ±∞ = 0`,
    `exp ⊥ = 0`, `exp ⊤ = ⊤`). -/
def gauss (x q : Fin 3 → EReal) (w : EReal) : EReal :=
  Ideal.exp (Ideal.div (-(∑ d : Fin 3, (x d - q d) * (x d - q d))) (w * w))

/-- The squared distance accumulated from zero one coordinate after the other, then taken from zero: the same
    feature. `0 + a = a` and `0 - s = -s` on the extended reals, and the sum over three coordinates is the three
    terms added left to right. -/
theorem gauss_of_fold (x q : Fin 3 → EReal) (w : EReal) :
    Ideal.exp (Ideal.div (0 - (((0 + (x 0 - q 0) * (x 0 - q 0)) + (x 1 - q 1) * (x 1 - q 1)) + (x 2 - q 2) * (x 2 - q 2))) (w * w))
      = gauss x q w := by
  unfold gauss
  rw [Fin.sum_univ_three, zero_add, zero_sub]

/-- Zero plus the sum of the three squares, negated: the same feature. -/
theorem gauss_of_sum (x q : Fin 3 → EReal) (w : EReal) :
    Ideal.exp (Ideal.div (-(0 + ∑ d : Fin 3, (x d - q d) * (x d - q d))) (w * w)) = gauss x q w := by
  unfold gauss
  rw [zero_add]

/-- The array of features: entry `(b, p, k)` is the feature of point `X[b, p, ·]` against centre `Q[k, ·]` with
    width `w k`. The widths are given by centre, so that a program holding them as a row `[1, 85]` and one holding
    them as a vector `[85]` are both read through it. -/
def rbf (X : (⟨3, ![16, 32768, 3]⟩ : Shape).Idx → EReal) (Q : (⟨2, ![85, 3]⟩ : Shape).Idx → EReal) (w : Fin 85 → EReal) :
    (⟨3, ![16, 32768, 85]⟩ : Shape).Idx → EReal :=
  fun i => gauss (fun d => X (ix3 (i 0) (i 1) d)) (fun d => Q (ix2 (i 2) d)) (w (i 2))

end Cert.Rbf

end
-- ==== Proof.RbfReference.lean ====
/-
  The reference computes the array of Gaussian radial-basis features.

  Its program broadcasts the points `[16, 32768, 3]` and the centres `[85, 3]` to `[16, 32768, 85, 3]`, subtracts,
  squares, sums the last axis from zero, negates, divides by the squared widths broadcast from `[85]`, and
  exponentiates. Read at an index `(b, p, k)` every broadcast reads its operand where the coordinates say, the sum
  is zero plus the three squares, and what is left is the feature of point `(b, p)` against centre `k`.
-/
import proofs.«171971_j38989713113611_1_alg».proof.Proof.Gen.ReferenceIdeal.Read
import proofs.«171971_j38989713113611_1_alg».proof.Proof.RbfSpec

noncomputable section

namespace Cert.ReferenceIdeal.RefValue

open Cert.ReferenceIdeal Cert.ReferenceIdeal.Read Idealize.ShloMosaic Idealize.ShloMosaic.ValueIdx Cert.Rbf

/-- The reference's last stage, as a function of its three arguments, is the array of features: the points
    are read at `(b, p, d)`, the centres at `(k, d)` and the widths at `k`, for the summed coordinate `d`. -/
theorem stage_eq_rbf (x0 : (⟨S16x32768x3, .f32⟩ : BufTy).Contents (Elt Ideal)) (x1 : (⟨S85x3, .f32⟩ : BufTy).Contents (Elt Ideal))
    (x2 : (⟨S85, .f32⟩ : BufTy).Contents (Elt Ideal)) :
    val_main_v12 (F := Ideal) x0 x1 x2 = rbf x0 x1 (fun k => x2 (ix1 k)) := by
  funext i
  -- where the two chains of broadcasts read the points and the centres, for the summed coordinate `d`
  have hx : ∀ d : Fin 3, idx_main_v0 (idx_main_v2 (idx_main_v6 i d)) = ix3 (i 0) (i 1) d := fun d =>
    funext fun a => Fin.ext (by match a with | ⟨0, _⟩ => rfl | ⟨1, _⟩ => rfl | ⟨2, _⟩ => rfl)
  have hq : ∀ d : Fin 3, idx_main_v1 (idx_main_v3 (idx_main_v6 i d)) = ix2 (i 2) d := fun d =>
    funext fun a => Fin.ext (by match a with | ⟨0, _⟩ => rfl | ⟨1, _⟩ => rfl)
  -- and where the widths' two broadcasts read them
  have hw : idx_main_v9 (idx_main_v10 i) = ix1 (i 2) :=
    funext fun a => Fin.ext (by match a with | ⟨0, _⟩ => rfl)
  rw [val_main_v12_apply, val_main_v11_apply, val_main_v8_apply, val_main_v6_apply, val_main_v10_apply,
    val_main_v9_apply, val_main_v7_apply, val_main_cst_apply, hw]
  simp only [val_main_v5_apply, val_main_v4_apply, val_main_v2_apply, val_main_v0_apply, val_main_v3_apply,
    val_main_v1_apply, hx, hq, Ideal.hostUnary_exp_def, Ideal.hostDivf_def, Ideal.hostNegf_def, Ideal.negf_def,
    Ideal.mulf_def, Ideal.subf_def, Ideal.ofBits_def, Ideal.ofBits_zero_f32]
  exact gauss_of_sum (fun d => x0 (ix3 (i 0) (i 1) d)) (fun d => x1 (ix2 (i 2) d)) (x2 (ix1 (i 2)))

end Cert.ReferenceIdeal.RefValue

end
-- ==== Proof.RbfBlock.lean ====
/-
  What one grid point of the kernel writes back.

  At a grid point the body holds a block of 4096 points `[1, 4096, 3]`, all the centres `[85, 3]` and the widths as a
  row `[1, 85]`. It slices the three coordinate columns of the points and of the centres, broadcasts them against
  each other, accumulates the three squared differences from zero, takes the result from zero, divides by the
  squared widths and exponentiates, and stores the whole `[1, 4096, 85]` block. So entry `(0, r, k)` of what it
  stores is the feature of the block's point `r` against centre `k` with width `k`.
-/
import proofs.«171971_j38989713113611_1_alg».proof.Proof.Gen.KernelIdeal.Value
import proofs.«171971_j38989713113611_1_alg».proof.Proof.RbfSpec

noncomputable section

namespace Cert.KernelIdeal.RbfValue

open Cert.KernelIdeal Cert.KernelIdeal.Gen Cert.KernelIdeal.Value Idealize.ShloMosaic Idealize.ShloMosaic.TcCoe
open Idealize.SL.Sem Idealize.ShloMosaic.ValueIdx Cert.Rbf

/-- The body's result read at a block index `y = (0, r, k)`, over arbitrary loaded values: the slices, shape
    casts and broadcasts read the points' block at `(0, r, d)`, the centres at `(k, d)` and the widths' row at
    `(0, k)`, and the arithmetic left is the feature with its squared distance accumulated from zero. -/
theorem entry_eq_gauss (P0 : Vec Ideal S1x4096x3 .f32) (P1 : Vec Ideal S85x3 .f32) (P2 : Vec Ideal S1x85 .f32) (y : S1x4096x85.Idx) :
    E3 (F := Ideal) P0 P1 P2 y
      = gauss (fun d => P0 (ix3 (0 : Fin 1) (y 1) d)) (fun d => P1 (ix2 (y 2) d)) (P2 (ix2 (0 : Fin 1) (y 2))) := by
  -- the points' block is read at row `r` and column `d`, twice per coordinate
  have p0 : ix3_0 y = ix3 (0 : Fin 1) (y 1) (0 : Fin 3) := funext fun a => Fin.ext (by match a with | ⟨0, _⟩ => rfl | ⟨1, _⟩ => rfl | ⟨2, _⟩ => rfl)
  have p0' : ix3_2 y = ix3 (0 : Fin 1) (y 1) (0 : Fin 3) := funext fun a => Fin.ext (by match a with | ⟨0, _⟩ => rfl | ⟨1, _⟩ => rfl | ⟨2, _⟩ => rfl)
  have p1 : ix3_4 y = ix3 (0 : Fin 1) (y 1) (1 : Fin 3) := funext fun a => Fin.ext (by match a with | ⟨0, _⟩ => rfl | ⟨1, _⟩ => rfl | ⟨2, _⟩ => rfl)
  have p1' : ix3_6 y = ix3 (0 : Fin 1) (y 1) (1 : Fin 3) := funext fun a => Fin.ext (by match a with | ⟨0, _⟩ => rfl | ⟨1, _⟩ => rfl | ⟨2, _⟩ => rfl)
  have p2 : ix3_8 y = ix3 (0 : Fin 1) (y 1) (2 : Fin 3) := funext fun a => Fin.ext (by match a with | ⟨0, _⟩ => rfl | ⟨1, _⟩ => rfl | ⟨2, _⟩ => rfl)
  have p2' : ix3_10 y = ix3 (0 : Fin 1) (y 1) (2 : Fin 3) := funext fun a => Fin.ext (by match a with | ⟨0, _⟩ => rfl | ⟨1, _⟩ => rfl | ⟨2, _⟩ => rfl)
  -- the centres at row `k` and column `d`
  have q0 : ix3_1 y = ix2 (y 2) (0 : Fin 3) := funext fun a => Fin.ext (by match a with | ⟨0, _⟩ => rfl | ⟨1, _⟩ => rfl)
  have q0' : ix3_3 y = ix2 (y 2) (0 : Fin 3) := funext fun a => Fin.ext (by match a with | ⟨0, _⟩ => rfl | ⟨1, _⟩ => rfl)
  have q1 : ix3_5 y = ix2 (y 2) (1 : Fin 3) := funext fun a => Fin.ext (by match a with | ⟨0, _⟩ => rfl | ⟨1, _⟩ => rfl)
  have q1' : ix3_7 y = ix2 (y 2) (1 : Fin 3) := funext fun a => Fin.ext (by match a with | ⟨0, _⟩ => rfl | ⟨1, _⟩ => rfl)
  have q2 : ix3_9 y = ix2 (y 2) (2 : Fin 3) := funext fun a => Fin.ext (by match a with | ⟨0, _⟩ => rfl | ⟨1, _⟩ => rfl)
  have q2' : ix3_11 y = ix2 (y 2) (2 : Fin 3) := funext fun a => Fin.ext (by match a with | ⟨0, _⟩ => rfl | ⟨1, _⟩ => rfl)
  -- the widths' row at column `k`
  have w0 : ix3_12 y = ix2 (0 : Fin 1) (y 2) := funext fun a => Fin.ext (by match a with | ⟨0, _⟩ => rfl | ⟨1, _⟩ => rfl)
  have w0' : ix3_13 y = ix2 (0 : Fin 1) (y 2) := funext fun a => Fin.ext (by match a with | ⟨0, _⟩ => rfl | ⟨1, _⟩ => rfl)
  -- the zero word is the extended real zero
  have hzero : Scalar.ofBits (F := Ideal) .f32 0x00000000#32 = (0 : EReal) := Ideal.ofBits_zero_f32
  simp only [E3, p0, p0', p1, p1', p2, p2', q0, q0', q1, q1', q2, q2', w0, w0', hzero, Ideal.exp_def, Ideal.divf_def,
    Ideal.subf_def, Ideal.addf_def, Ideal.mulf_def]
  exact gauss_of_fold (fun d => P0 (ix3 (0 : Fin 1) (y 1) d)) (fun d => P1 (ix2 (y 2) d)) (P2 (ix2 (0 : Fin 1) (y 2)))

theorem zero3 : (![0, 0, 0] : Fin 3 → Nat) = fun _ => 0 := funext fun a => by fin_cases a <;> rfl
theorem zero2 : (![0, 0] : Fin 2 → Nat) = fun _ => 0 := funext fun a => by fin_cases a <;> rfl

/-- What the body leaves in the output's buffer, from the three input buffers' contents, entry by entry: its one
    store covers the buffer and its loads read the input buffers whole. -/
theorem out_entry (x0 : Vec Ideal S1x4096x3 .f32) (x1 : Vec Ideal S85x3 .f32) (x2 : Vec Ideal S1x85 .f32) (y : S1x4096x85.Idx) :
    out0_3 x0 x1 x2 y
      = gauss (fun d => x0 (ix3 (0 : Fin 1) (y 1) d)) (fun d => x1 (ix2 (y 2) d)) (x2 (ix2 (0 : Fin 1) (y 2))) := by
  unfold out0_3
  rw [canon3_eq]
  simp only [View.ld_unit_zero (S := S1x4096x3) zero3, View.ld_unit_zero (S := S85x3) zero2, View.ld_unit_zero (S := S1x85) zero2]
  exact entry_eq_gauss x0 x1 x2 y

end Cert.KernelIdeal.RbfValue

end
-- ==== Proof.RbfArray.lean ====
/-
  From the blocks to the whole array.

  The grid has 16 × 8 points. Point `(b, s)` stages the points' block `X[b, 4096 s .. 4096 s + 4095, ·]`, all the
  centres and the widths' row (the same block at every point), and writes back block `(b, s)` of the output,
  rows `4096 s ..` of batch `b`, all 85 columns. An entry `(0, r, k)` of the block a point stages or writes is entry
  `(b, 4096 s + r, k)` of the array, so what a point writes back is its block of the array of features of the
  arrays as the region finds them. The 128 blocks tile `[16, 32768, 85]`: row `p` of batch `b` is in the block of
  point `(b, p / 4096)`. The widths' row is the host's reshape of the widths, the same elements in row-major
  order, so its entry `(0, k)` is width `k`.
-/
import proofs.«171971_j38989713113611_1_alg».proof.Proof.RbfBlock
import Idealize.ShloMosaic.Lib.Pipeline.Value
import Idealize.ShloMosaic.Lib.StableHlo.Run

noncomputable section

namespace Cert.KernelIdeal.RbfValue

open Cert.KernelIdeal Cert.KernelIdeal.Gen Cert.KernelIdeal.Value Idealize.ShloMosaic Idealize.ShloMosaic.TcCoe
open Idealize.SL.Sem Idealize.ShloMosaic.ValueIdx Cert.Rbf
open Idealize.ShloMosaic.Pipeline (Dat)

variable (m : (ℓ : Loc nD τ sig) → Buf (Elt Ideal) ℓ) (ρ : Dev nD → PrngReg)

/-- The printed index maps, decided over the 128 points: the points' window moves with the output's on the batch
    and row-block axes and stays at column block 0; the centres' and the widths' windows stay at block (0, 0); the
    output's stays at column block 0. -/
theorem index_maps : ∀ t : Fin cfg0.N,
    win0_0.index t (0 : Fin 3) = win0_3.index t (0 : Fin 3) ∧ win0_0.index t (1 : Fin 3) = win0_3.index t (1 : Fin 3)
    ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (2 : Fin 3) = 0 :=
  (by decide +kernel : ∀ t : Fin grid0.N, _)

/-- Every (batch, row block) is some point's output block. -/
theorem point_of_block : ∀ (b : Fin 16) (s : Fin 8), ∃ t : Fin cfg0.N, win0_3.index t = ![b.val, s.val, 0] :=
  (by decide +kernel : ∀ (b : Fin 16) (s : Fin 8), ∃ t : Fin grid0.N, win0_3.index t = ![b.val, s.val, 0])

/-- WHAT POINT `t` WRITES BACK is block `t` of the array of features of the arrays as the region finds them: the
    widths read from the row `[1, 85]` the host wrote. -/
theorem flushed_eq (c : Dev nD) (t : Fin cfg0.N) :
    (dats m 0 c).flushed 3 t = ((cfg0.win 3).blk t).view.read (Elt Ideal)
      (rbf (V m c main_arg0) (V m c main_arg1) (fun k => V m c main_v0 (ix2 (0 : Fin 1) k))) := by
  rw [flushed3]
  obtain ⟨e00, e01, e02, e10, e11, e20, e21, e32⟩ := index_maps t
  refine funext fun (j : S1x4096x85.Idx) => ?_
  have hj0 : (j 0).val < 1 := (j 0).isLt
  have hj1 : (j 1).val < 4096 := (j 1).isLt
  have hj2 : (j 2).val < 85 := (j 2).isLt
  show out0_3 (iblk m c 0 t) (iblk m c 1 t) (iblk m c 2 t) j
    = rbf (V m c main_arg0) (V m c main_arg1) (fun k => V m c main_v0 (ix2 (0 : Fin 1) k)) (((cfg0.win 3).blk t).view.emb j)
  refine (out_entry (iblk m c 0 t) (iblk m c 1 t) (iblk m c 2 t) j).trans ?_
  unfold rbf
  -- the points' block at `(0, r, d)` is the array at `(b, 4096 s + r, d)`
  have hx : (fun d : Fin 3 => iblk m c 0 t (ix3 (0 : Fin 1) (j 1) d))
      = fun d : Fin 3 => V m c main_arg0 (ix3 ((((cfg0.win 3).blk t).view.emb j) 0) ((((cfg0.win 3).blk t).view.emb j) 1) d) := by
    funext d
    show V m c main_arg0 (((cfg0.win 0).blk t).view.emb (ix3 (0 : Fin 1) (j 1) d)) = _
    refine congrArg (V m c main_arg0) (funext fun a => Fin.ext ?_)
    match a with
    | ⟨0, _⟩ => show win0_0.index t (0 : Fin 3) * 1 + 1 * 0 = win0_3.index t (0 : Fin 3) * 1 + 1 * (j 0).val; omega
    | ⟨1, _⟩ => show win0_0.index t (1 : Fin 3) * 4096 + 1 * (j 1).val = win0_3.index t (1 : Fin 3) * 4096 + 1 * (j 1).val; omega
    | ⟨2, _⟩ => show win0_0.index t (2 : Fin 3) * 3 + 1 * d.val = d.val; omega
  -- the centres' block is the whole array
  have hq : (fun d : Fin 3 => iblk m c 1 t (ix2 (j 2) d))
      = fun d : Fin 3 => V m c main_arg1 (ix2 ((((cfg0.win 3).blk t).view.emb j) 2) d) := by
    funext d
    show V m c main_arg1 (((cfg0.win 1).blk t).view.emb (ix2 (j 2) d)) = _
    refine congrArg (V m c main_arg1) (funext fun a => Fin.ext ?_)
    match a with
    | ⟨0, _⟩ => show win0_1.index t (0 : Fin 2) * 85 + 1 * (j 2).val = win0_3.index t (2 : Fin 3) * 85 + 1 * (j 2).val; omega
    | ⟨1, _⟩ => show win0_1.index t (1 : Fin 2) * 3 + 1 * d.val = d.val; omega
  -- and so is the widths' row
  have hw : iblk m c 2 t (ix2 (0 : Fin 1) (j 2)) = V m c main_v0 (ix2 (0 : Fin 1) ((((cfg0.win 3).blk t).view.emb j) 2)) := by
    show V m c main_v0 (((cfg0.win 2).blk t).view.emb (ix2 (0 : Fin 1) (j 2))) = _
    refine congrArg (V m c main_v0) (funext fun a => Fin.ext ?_)
    match a with
    | ⟨0, _⟩ => show win0_2.index t (0 : Fin 2) * 1 + 1 * 0 = 0; omega
    | ⟨1, _⟩ => show win0_2.index t (1 : Fin 2) * 85 + 1 * (j 2).val = win0_3.index t (2 : Fin 3) * 85 + 1 * (j 2).val; omega
  rw [hx, hq, hw]

/-- An index of the array is in point `t`'s output block iff each coordinate is in the block's range on its axis. -/
theorem mem_block (t : Fin cfg0.N) (i : S16x32768x85.Idx) :
    i ∈ ((cfg0.win 3).blk t).view.set ↔ ∀ a : Fin 3, win0_3.index t a * S1x4096x85.size a ≤ (i a).val
      ∧ (i a).val < win0_3.index t a * S1x4096x85.size a + S1x4096x85.size a := by
  show i ∈ ((View.whole main_v1).slice (win0_3.rect t)).set ↔ _
  rw [View.set_slice_whole, Rect.mem_set_unit]
  exact Iff.rfl

/-- The output's blocks tile the array: entry `(b, p, k)` is in the block of the point at `(b, p / 4096)`. -/
theorem covered (i : S16x32768x85.Idx) :
    ∃ t : Fin cfg0.N, (cfg0.win 3).flush t = true ∧ i ∈ ((cfg0.win 3).blk t).view.set := by
  have hi0 : (i 0).val < 16 := (i 0).isLt
  have hi1 : (i 1).val < 32768 := (i 1).isLt
  have hi2 : (i 2).val < 85 := (i 2).isLt
  obtain ⟨t, ht⟩ := point_of_block ⟨(i 0).val, hi0⟩ ⟨(i 1).val / 4096, by omega⟩
  have q0 : win0_3.index t (0 : Fin 3) = (i 0).val := congrFun ht 0
  have q1 : win0_3.index t (1 : Fin 3) = (i 1).val / 4096 := congrFun ht 1
  have q2 : win0_3.index t (2 : Fin 3) = 0 := congrFun ht 2
  refine ⟨t, flush0_3 t, ?_⟩
  rw [mem_block]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 4096 ≤ (i 1).val ∧ (i 1).val < win0_3.index t (1 : Fin 3) * 4096 + 4096; omega
  | ⟨2, _⟩ => show win0_3.index t (2 : Fin 3) * 85 ≤ (i 2).val ∧ (i 2).val < win0_3.index t (2 : Fin 3) * 85 + 85; omega

/-- The widths' row as the region finds it is the host's reshape of the widths. -/
theorem widths_row (c : Dev nD) :
    (V m c main_v0 : S1x85.Idx → Elt Ideal .f32) = shapeCast S1x85 (m ((c : Thread nD τ).loc main_arg2)) shapeCasts_S85_S1x85 := by
  dsimp only [V, hostOps0]; after_results; rfl

/-- Entry `(0, k)` of the row is width `k`: the reshape keeps the row-major order. -/
theorem widths_row_apply (c : Dev nD) (k : Fin 85) :
    V m c main_v0 (ix2 (0 : Fin 1) k) = m ((c : Thread nD τ).loc main_arg2) (ix1 k) := by
  rw [widths_row]
  exact shapeCast_apply _ _ (ix2 (0 : Fin 1) k) (ix1 k)
    (by rw [Shape.rowMajor_val_one, Shape.rowMajor_val_two]; show k.val = 0 * 85 + k.val; omega)

/-- THE ARRAY after the run is the array of features of the arguments as launched. -/
theorem final (c : Dev nD) : (dats m 0 c).arrAt 3 cfg0.N
    = rbf (m ((c : Thread nD τ).loc main_arg0)) (m ((c : Thread nD τ).loc main_arg1)) (fun k => m ((c : Thread nD τ).loc main_arg2) (ix1 k)) := by
  rw [(dats m 0 c).arrAt_eq_of_cover 3 _ (fun t _ => flushed_eq m c t) covered, V_main_arg0, V_main_arg1]
  exact congrArg _ (funext fun k => widths_row_apply m c k)

/-- The kernel's run, read: the result array at the array of features of the arguments, the arguments unchanged. -/
theorem run : θ_run defs (onTc (τ := τ) (main (F := Ideal))) ⟨m, fun _ => 0, ρ⟩ fun r => ∀ c : Dev nD,
      r.2.mem ((c : Thread nD τ).loc main_v1)
        = rbf (m ((c : Thread nD τ).loc main_arg0)) (m ((c : Thread nD τ).loc main_arg1)) (fun k => m ((c : Thread nD τ).loc main_arg2) (ix1 k))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.RbfValue

end
-- ==== Proof.lean ====
/-
  Gaussian radial-basis features of 16 × 32768 points in three dimensions against 85 centres: entry `(b, p, k)` of
  the result is `exp (-‖X[b, p, ·] - Q[k, ·]‖² / ω[k]²)`.

  The kernel walks a 16 × 8 grid; at a point it holds 4096 points, all the centres and the widths as a row, and
  writes one `[1, 4096, 85]` block: the three squared coordinate differences accumulated from zero, taken from
  zero, divided by the squared widths, exponentiated. The reference broadcasts points and centres to
  `[16, 32768, 85, 3]`, sums the squared differences over the last axis, negates, divides and exponentiates.
  On the extended reals both are one function of the arguments (Proof/RbfSpec.lean): the sum of three terms is
  the terms added in order, `0 + a = a` and `0 - s = -s`, with no condition on the inputs, so the precondition is
  never opened. The kernel's blocks tile the result (Proof/RbfArray.lean, over what one point writes,
  Proof/RbfBlock.lean); the reference is read one operation at a time (Proof/RbfReference.lean).

  The three frames: the two kernels' are their generated frame certificates; the reference has no kernel and
  its frame is its run with the result dropped. The idealization rewrote no operation, so there is nothing to
  preserve.
-/
import proofs.«171971_j38989713113611_1_alg».proof.Defs
import proofs.«171971_j38989713113611_1_alg».proof.Proof.Gen.Kernel
import proofs.«171971_j38989713113611_1_alg».proof.Proof.Gen.Kernel.Skeleton
import proofs.«171971_j38989713113611_1_alg».proof.Proof.Gen.Kernel.Launch
import proofs.«171971_j38989713113611_1_alg».proof.Proof.Gen.Kernel.Points
import proofs.«171971_j38989713113611_1_alg».proof.Proof.Gen.Kernel.Frame
import proofs.«171971_j38989713113611_1_alg».proof.Proof.Gen.KernelIdeal
import proofs.«171971_j38989713113611_1_alg».proof.Proof.Gen.KernelIdeal.Skeleton
import proofs.«171971_j38989713113611_1_alg».proof.Proof.Gen.KernelIdeal.Launch
import proofs.«171971_j38989713113611_1_alg».proof.Proof.Gen.KernelIdeal.Points
import proofs.«171971_j38989713113611_1_alg».proof.Proof.Gen.KernelIdeal.Frame
import proofs.«171971_j38989713113611_1_alg».proof.Proof.Gen.ReferenceIdeal
import proofs.«171971_j38989713113611_1_alg».proof.Proof.Gen.Pre_finite_inputs
import proofs.«171971_j38989713113611_1_alg».proof.Proof.Gen.KernelIdeal.Value
import proofs.«171971_j38989713113611_1_alg».proof.Proof.Gen.ReferenceIdeal.Run
import proofs.«171971_j38989713113611_1_alg».proof.Proof.Gen.ReferenceIdeal.Read
import proofs.«171971_j38989713113611_1_alg».proof.Proof.RbfSpec
import proofs.«171971_j38989713113611_1_alg».proof.Proof.RbfReference
import proofs.«171971_j38989713113611_1_alg».proof.Proof.RbfBlock
import proofs.«171971_j38989713113611_1_alg».proof.Proof.RbfArray
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both runs end with the result at the array of features of their arguments, and the arguments agree. -/
theorem algebraic : Cert.algebraic_KernelIdeal_ReferenceIdeal := by
  intro m ρ m' ρ' _ hagree
  refine ⟨_, Cert.KernelIdeal.RbfValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v12_eq, Cert.ReferenceIdeal.RefValue.stage_eq_rbf,
    (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
